-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x128x128 : Shape := ⟨4, ![256, 3, 128, 128]⟩
abbrev S16x16x192x1000 : Shape := ⟨4, ![16, 16, 192, 1000]⟩
abbrev S_ : Shape := ⟨0, ![]⟩

class Facts : Prop where
  bcast_S_S256x3x128x128 : S_.BroadcastsInDim S256x3x128x128 (![] : Fin 0 → Fin S256x3x128x128.rank)
  reducesTo_S256x3x128x128_S_d0_1_2_3 : S256x3x128x128.ReducesTo [0, 1, 2, 3] S_
  h_S_ : 0 < S_.numel
  bcast_S_S16x16x192x1000 : S_.BroadcastsInDim S16x16x192x1000 (![] : Fin 0 → Fin S16x16x192x1000.rank)
  reducesTo_S16x16x192x1000_S_d0_1_2_3 : S16x16x192x1000.ReducesTo [0, 1, 2, 3] S_

variable [Facts]

def fn {F : FTy → Type} [FloatOps F] (main_arg0 : FVec F S256x3x128x128 .f32) (main_arg1 : FVec F S16x16x192x1000 .f32) : IVec S_ 1 :=
  let main_v0 : FVec F S256x3x128x128 .f32 := Host.absf main_arg0
  let main_cst : FVec F S_ .f32 := constant S_ .f32 0x7F800000#32
  let main_v1 : FVec F S256x3x128x128 .f32 := broadcastInDim S256x3x128x128 ![] bcast_S_S256x3x128x128 main_cst
  let main_v2 : IVec S256x3x128x128 1 := cmpf .olt main_v0 main_v1
  let main_c : IVec S_ 1 := constantI S_ 1 1#1
  let main_v3 : IVec S_ 1 := (fun x v => Host.reduce IntOp.andi x v reducesTo_S256x3x128x128_S_d0_1_2_3 h_S_) main_v2 main_c
  let main_v4 : FVec F S16x16x192x1000 .f32 := Host.absf main_arg1
  let main_cst_0 : FVec F S_ .f32 := constant S_ .f32 0x7F800000#32
  let main_v5 : FVec F S16x16x192x1000 .f32 := broadcastInDim S16x16x192x1000 ![] bcast_S_S16x16x192x1000 main_cst_0
  let main_v6 : IVec S16x16x192x1000 1 := cmpf .olt main_v4 main_v5
  let main_c_1 : IVec S_ 1 := constantI S_ 1 1#1
  let main_v7 : IVec S_ 1 := (fun x v => Host.reduce IntOp.andi x v reducesTo_S16x16x192x1000_S_d0_1_2_3 h_S_) main_v6 main_c_1
  let main_v8 : IVec S_ 1 := andi main_v3 main_v7
  main_v8
-- ==== Kernel.lean ====
abbrev S256x3x128x128 : Shape := ⟨4, ![256, 3, 128, 128]⟩
abbrev S16x16x192x1000 : Shape := ⟨4, ![16, 16, 192, 1000]⟩
abbrev S256x3x16x8x16x8 : Shape := ⟨6, ![256, 3, 16, 8, 16, 8]⟩
abbrev S16x16x256x3x8x8 : Shape := ⟨6, ![16, 16, 256, 3, 8, 8]⟩
abbrev S16x16x256x192 : Shape := ⟨4, ![16, 16, 256, 192]⟩
abbrev S16x16x256x1000 : Shape := ⟨4, ![16, 16, 256, 1000]⟩
abbrev S1x4x256x192 : Shape := ⟨4, ![1, 4, 256, 192]⟩
abbrev S1x4x192x1000 : Shape := ⟨4, ![1, 4, 192, 1000]⟩
abbrev S1x4x256x1000 : Shape := ⟨4, ![1, 4, 256, 1000]⟩
abbrev S1x1x256x192 : Shape := ⟨4, ![1, 1, 256, 192]⟩
abbrev S256x192 : Shape := ⟨2, ![256, 192]⟩
abbrev S256 : Shape := ⟨1, ![256]⟩
abbrev S256x1 : Shape := ⟨2, ![256, 1]⟩
abbrev S1x1x192x1000 : Shape := ⟨4, ![1, 1, 192, 1000]⟩
abbrev S192x1000 : Shape := ⟨2, ![192, 1000]⟩
abbrev S256x1000 : Shape := ⟨2, ![256, 1000]⟩
abbrev S1x1x256x1000 : Shape := ⟨4, ![1, 1, 256, 1000]⟩
abbrev S256x1000x16x16 : Shape := ⟨4, ![256, 1000, 16, 16]⟩

abbrev nBuf : Space → Nat
  | .hbm => 7
  | .vmem => 6
  | .smem => 0
  | _ => 0

abbrev bufTy : (tb : Table) → Fin (tcTables nBuf tb) → BufTy
  | .hbm, ⟨0, _⟩ => ⟨S256x3x128x128, .f32⟩
  | .hbm, ⟨1, _⟩ => ⟨S16x16x192x1000, .f32⟩
  | .hbm, ⟨2, _⟩ => ⟨S256x3x16x8x16x8, .f32⟩
  | .hbm, ⟨3, _⟩ => ⟨S16x16x256x3x8x8, .f32⟩
  | .hbm, ⟨4, _⟩ => ⟨S16x16x256x192, .f32⟩
  | .hbm, ⟨5, _⟩ => ⟨S16x16x256x1000, .f32⟩
  | .hbm, ⟨6, _⟩ => ⟨S256x1000x16x16, .f32⟩
  | .local _ .vmem, ⟨0, _⟩ => ⟨S1x4x256x192, .f32⟩
  | .local _ .vmem, ⟨1, _⟩ => ⟨S1x4x256x192, .f32⟩
  | .local _ .vmem, ⟨2, _⟩ => ⟨S1x4x192x1000, .f32⟩
  | .local _ .vmem, ⟨3, _⟩ => ⟨S1x4x192x1000, .f32⟩
  | .local _ .vmem, ⟨4, _⟩ => ⟨S1x4x256x1000, .f32⟩
  | .local _ .vmem, ⟨5, _⟩ => ⟨S1x4x256x1000, .f32⟩
  | _, _ => ⟨S256x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x192x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S256x3x128x128_S256x3x16x8x16x8 : S256x3x128x128.ShapeCasts S256x3x16x8x16x8
  transposes_S256x3x16x8x16x8_S16x16x256x3x8x8_2_4_0_1_3_5 : S256x3x16x8x16x8.Transposes [2, 4, 0, 1, 3, 5] S16x16x256x3x8x8
  shapeCasts_S16x16x256x3x8x8_S16x16x256x192 : S16x16x256x3x8x8.ShapeCasts S16x16x256x192
  inb_S1x4x256x192_S1x1x256x192_0_0_0_0 : ∀ a, (![0, 0, 0, 0] : Fin 4 → Nat) a + S1x1x256x192.size a ≤ S1x4x256x192.size a
  h_S1x1x256x192 : 0 < S1x1x256x192.numel
  shapeCasts_S1x1x256x192_S256x192 : S1x1x256x192.ShapeCasts S256x192
  reduces_S256x192_S256 : S256x192.Reduces [1] S256
  shapeCasts_S256_S256x1 : S256.ShapeCasts S256x1
  broadcasts_S256x1_S256x192 : S256x1.Broadcasts S256x192
  bitsLt_bf16_f32 : FTy.bits .bf16 < FTy.bits .f32
  inb_S1x4x192x1000_S1x1x192x1000_0_0_0_0 : ∀ a, (![0, 0, 0, 0] : Fin 4 → Nat) a + S1x1x192x1000.size a ≤ S1x4x192x1000.size a
  h_S1x1x192x1000 : 0 < S1x1x192x1000.numel
  shapeCasts_S1x1x192x1000_S192x1000 : S1x1x192x1000.ShapeCasts S192x1000
  inb_S1x4x256x1000_S1x1x256x1000_0_0_0_0 : ∀ a, (![0, 0, 0, 0] : Fin 4 → Nat) a + S1x1x256x1000.size a ≤ S1x4x256x1000.size a
  h_S1x1x256x1000 : 0 < S1x1x256x1000.numel
  shapeCasts_S1x1x256x1000_S256x1000 : S1x1x256x1000.ShapeCasts S256x1000
  shapeCasts_S256x1000_S1x1x256x1000 : S256x1000.ShapeCasts S1x1x256x1000
  inb_S1x4x256x192_S1x1x256x192_0_1_0_0 : ∀ a, (![0, 1, 0, 0] : Fin 4 → Nat) a + S1x1x256x192.size a ≤ S1x4x256x192.size a
  inb_S1x4x192x1000_S1x1x192x1000_0_1_0_0 : ∀ a, (![0, 1, 0, 0] : Fin 4 → Nat) a + S1x1x192x1000.size a ≤ S1x4x192x1000.size a
  inb_S1x4x256x1000_S1x1x256x1000_0_1_0_0 : ∀ a, (![0, 1, 0, 0] : Fin 4 → Nat) a + S1x1x256x1000.size a ≤ S1x4x256x1000.size a
  inb_S1x4x256x192_S1x1x256x192_0_2_0_0 : ∀ a, (![0, 2, 0, 0] : Fin 4 → Nat) a + S1x1x256x192.size a ≤ S1x4x256x192.size a
  inb_S1x4x192x1000_S1x1x192x1000_0_2_0_0 : ∀ a, (![0, 2, 0, 0] : Fin 4 → Nat) a + S1x1x192x1000.size a ≤ S1x4x192x1000.size a
  inb_S1x4x256x1000_S1x1x256x1000_0_2_0_0 : ∀ a, (![0, 2, 0, 0] : Fin 4 → Nat) a + S1x1x256x1000.size a ≤ S1x4x256x1000.size a
  inb_S1x4x256x192_S1x1x256x192_0_3_0_0 : ∀ a, (![0, 3, 0, 0] : Fin 4 → Nat) a + S1x1x256x192.size a ≤ S1x4x256x192.size a
  inb_S1x4x192x1000_S1x1x192x1000_0_3_0_0 : ∀ a, (![0, 3, 0, 0] : Fin 4 → Nat) a + S1x1x192x1000.size a ≤ S1x4x192x1000.size a
  inb_S1x4x256x1000_S1x1x256x1000_0_3_0_0 : ∀ a, (![0, 3, 0, 0] : Fin 4 → Nat) a + S1x1x256x1000.size a ≤ S1x4x256x1000.size a
  transposes_S16x16x256x1000_S256x1000x16x16_2_3_0_1 : S16x16x256x1000.Transposes [2, 3, 0, 1] S256x1000x16x16
  dot_S256x192_S192x1000_S256x1000_1_0_0_1_n_n_wf : DotDims.WF S256x192 S192x1000 S256x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x192.size a ≤ S16x16x256x192.size a
  hwx0_0 : ∀ i : grid0.Coords, EltTy.bits .f32 = 32 ∨ (Rect.block (s := S16x16x256x192) S1x4x256x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x192x1000.size a ≤ S16x16x192x1000.size a
  hwx0_1 : ∀ i : grid0.Coords, EltTy.bits .f32 = 32 ∨ (Rect.block (s := S16x16x192x1000) S1x4x192x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256x1000.size a ≤ S16x16x256x1000.size a
  hwx0_2 : ∀ i : grid0.Coords, EltTy.bits .f32 = 32 ∨ (Rect.block (s := S16x16x256x1000) S1x4x256x1000.size (cc0_transform_2 i) (hinb0_2 i)).WholeWords (EltTy.packing .f32)

variable [Facts₀]

def dot_S256x192_S192x1000_S256x1000_1_0_0_1_n_n : DotDims S256x192 S192x1000 S256x1000 where
  lhsContracting := [1]
  rhsContracting := [0]
  lhsNonContracting := [0]
  rhsNonContracting := [1]
  lhsBatch := []
  rhsBatch := []
  wf := dot_S256x192_S192x1000_S256x1000_1_0_0_1_n_n_wf

abbrev win0_0 : Pipeline.Window sig grid0 :=
  Pipeline.Window.ofSpec (Memref.whole main_v2) S1x4x256x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x192x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4x256x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x3x128x128 : Shape := ⟨4, ![256, 3, 128, 128]⟩
abbrev S16x16x192x1000 : Shape := ⟨4, ![16, 16, 192, 1000]⟩
abbrev S256x3x16x8x16x8 : Shape := ⟨6, ![256, 3, 16, 8, 16, 8]⟩
abbrev S16x16x256x3x8x8 : Shape := ⟨6, ![16, 16, 256, 3, 8, 8]⟩
abbrev S16x16x256x192 : Shape := ⟨4, ![16, 16, 256, 192]⟩
abbrev S_ : Shape := ⟨0, ![]⟩
abbrev S16x16x256 : Shape := ⟨3, ![16, 16, 256]⟩
abbrev S16x16x256x1 : Shape := ⟨4, ![16, 16, 256, 1]⟩
abbrev S16x16x256x1000 : Shape := ⟨4, ![16, 16, 256, 1000]⟩
abbrev S256x1000x16x16 : Shape := ⟨4, ![256, 1000, 16, 16]⟩

abbrev nBuf : Space → Nat
  | .hbm => 24
  | .vmem => 0
  | .smem => 0
  | _ => 0

abbrev bufTy : (tb : Table) → Fin (tcTables nBuf tb) → BufTy
  | .hbm, ⟨0, _⟩ => ⟨S256x3x128x128, .f32⟩
  | .hbm, ⟨1, _⟩ => ⟨S16x16x192x1000, .f32⟩
  | .hbm, ⟨2, _⟩ => ⟨S256x3x16x8x16x8, .f32⟩
  | .hbm, ⟨3, _⟩ => ⟨S16x16x256x3x8x8, .f32⟩
  | .hbm, ⟨4, _⟩ => ⟨S16x16x256x192, .f32⟩
  | .hbm, ⟨5, _⟩ => ⟨S_, .f32⟩
  | .hbm, ⟨6, _⟩ => ⟨S16x16x256x192, .f32⟩
  | .hbm, ⟨7, _⟩ => ⟨S16x16x256x192, .f32⟩
  | .hbm, ⟨8, _⟩ => ⟨S_, .f32⟩
  | .hbm, ⟨9, _⟩ => ⟨S16x16x256, .f32⟩
  | .hbm, ⟨10, _⟩ => ⟨S_, .f32⟩
  | .hbm, ⟨11, _⟩ => ⟨S16x16x256, .f32⟩
  | .hbm, ⟨12, _⟩ => ⟨S16x16x256, .f32⟩
  | .hbm, ⟨13, _⟩ => ⟨S16x16x256x1, .f32⟩
  | .hbm, ⟨14, _⟩ => ⟨S16x16x256x192, .f32⟩
  | .hbm, ⟨15, _⟩ => ⟨S16x16x256x192, .f32⟩
  | .hbm, ⟨16, _⟩ => ⟨S16x16x256x192, .f32⟩
  | .hbm, ⟨17, _⟩ => ⟨S_, .f32⟩
  | .hbm, ⟨18, _⟩ => ⟨S16x16x256, .f32⟩
  | .hbm, ⟨19, _⟩ => ⟨S16x16x256x1, .f32⟩
  | .hbm, ⟨20, _⟩ => ⟨S16x16x256x192, .f32⟩
  | .hbm, ⟨21, _⟩ => ⟨S16x16x256x192, .f32⟩
  | .hbm, ⟨22, _⟩ => ⟨S16x16x256x1000, .f32⟩
  | .hbm, ⟨23, _⟩ => ⟨S256x1000x16x16, .f32⟩
  | _, _ => ⟨S256x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S256x3x128x128_S256x3x16x8x16x8 : S256x3x128x128.ShapeCasts S256x3x16x8x16x8
  transposes_S256x3x16x8x16x8_S16x16x256x3x8x8_2_4_0_1_3_5 : S256x3x16x8x16x8.Transposes [2, 4, 0, 1, 3, 5] S16x16x256x3x8x8
  shapeCasts_S16x16x256x3x8x8_S16x16x256x192 : S16x16x256x3x8x8.ShapeCasts S16x16x256x192
  bcast_S_S16x16x256x192 : S_.BroadcastsInDim S16x16x256x192 (![] : Fin 0 → Fin S16x16x256x192.rank)
  reducesTo_S16x16x256x192_S16x16x256_d3 : S16x16x256x192.ReducesTo [3] S16x16x256
  h_S_ : 0 < S_.numel
  bcast_S_S16x16x256 : S_.BroadcastsInDim S16x16x256 (![] : Fin 0 → Fin S16x16x256.rank)
  bcast_S16x16x256_S16x16x256x1_0_1_2 : S16x16x256.BroadcastsInDim S16x16x256x1 (![0, 1, 2] : Fin 3 → Fin S16x16x256x1.rank)
  bcast_S16x16x256x1_S16x16x256x192_0_1_2_3 : S16x16x256x1.BroadcastsInDim S16x16x256x192 (![0, 1, 2, 3] : Fin 4 → Fin S16x16x256x192.rank)
  transposes_S16x16x256x1000_S256x1000x16x16_2_3_0_1 : S16x16x256x1000.Transposes [2, 3, 0, 1] S256x1000x16x16
  dot_S16x16x256x192_S16x16x192x1000_S16x16x256x1000_3_2_2_3_01_01_wf : DotDims.WF S16x16x256x192 S16x16x192x1000 S16x16x256x1000 [3] [2] [2] [3] [0, 1] [0, 1]

variable [Facts₀]

def dot_S16x16x256x192_S16x16x192x1000_S16x16x256x1000_3_2_2_3_01_01 : DotDims S16x16x256x192 S16x16x192x1000 S16x16x256x1000 where
  lhsContracting := [3]
  rhsContracting := [2]
  lhsNonContracting := [2]
  rhsNonContracting := [3]
  lhsBatch := [0, 1]
  rhsBatch := [0, 1]
  wf := dot_S16x16x256x192_S16x16x192x1000_S16x16x256x1000_3_2_2_3_01_01_wf

class Facts : Prop extends Facts₀ where

variable [Facts]
-- ==== Proof.Softmax.lean ====
/-
  Row softmax and the per-location memory read, on the extended reals.

  For a row `s` of `n` extended reals the softmax used here subtracts the row's largest entry before the
  exponential: `softmax s k = exp (s k - M) / Σ k', exp (s k' - M)` with `M` the fold of `max` over the row from
  the value of the word `0xFF800000` (−∞). The memory read at grid cell `(w, h)`, batch row `b` and output
  channel `o` is `Σ k, softmax (10 · p[w, h, b, ·]) k · W[w, h, k, o]`: a row of probabilities times a column of the
  cell's own matrix. Nothing here refers to a program; the words for −∞, 0 and 10 are kept as words and never
  evaluated.
-/
import Idealize.ShloMosaic.Lib.ValueIdx
import Idealize.ShloMosaic.PureOps.Ideal.Laws
import Mathlib.Data.Finset.Fold

noncomputable section

open scoped BigOperators

namespace Cert.Softmax

open Idealize.ShloMosaic Idealize.ShloMosaic.ValueIdx

/-- The value of the word for −∞ (what both maxima start from). -/
abbrev negInf : EReal := Ideal.ofBits .f32 0xFF800000#32

/-- The value of the word for the inverse temperature 10. -/
abbrev beta : EReal := Ideal.ofBits .f32 0x41200000#32

/-- The largest entry of a row: the fold of `max` from −∞. -/
def rowMax {n : ℕ} (s : Fin n → EReal) : EReal := (Finset.univ : Finset (Fin n)).fold max negInf s

/-- A further `max` with the starting value changes nothing: the fold is already above it. -/
theorem max_negInf_rowMax {n : ℕ} (s : Fin n → EReal) : max negInf (rowMax s) = rowMax s :=
  max_eq_right ((Finset.le_fold_max negInf).mpr (Or.inl le_rfl))

/-- The shifted exponential of entry `k` of a row. -/
def rowExp {n : ℕ} (s : Fin n → EReal) (k : Fin n) : EReal := Ideal.exp (s k - rowMax s)

/-- Entry `k` of the softmax of a row: its shifted exponential over the sum of all of them. -/
def rowSoftmax {n : ℕ} (s : Fin n → EReal) (k : Fin n) : EReal := Ideal.div (rowExp s k) (∑ k', rowExp s k')

/-- The memory read at one cell, batch row and output channel: the softmax of the scaled patch row against the
    column of the cell's matrix. -/
def readAt (p : (⟨4, ![16, 16, 256, 192]⟩ : Shape).Idx → EReal) (W : (⟨4, ![16, 16, 192, 1000]⟩ : Shape).Idx → EReal)
    (w h : Fin 16) (b : Fin 256) (o : Fin 1000) : EReal :=
  ∑ k : Fin 192, rowSoftmax (fun k' => p (ix4 w h b k') * beta) k * W (ix4 w h k o)

/-- The whole `[16, 16, 256, 1000]` array of memory reads. -/
def memRead (p : (⟨4, ![16, 16, 256, 192]⟩ : Shape).Idx → EReal) (W : (⟨4, ![16, 16, 192, 1000]⟩ : Shape).Idx → EReal) :
    (⟨4, ![16, 16, 256, 1000]⟩ : Shape).Idx → EReal :=
  fun i => readAt p W (i 0) (i 1) (i 2) (i 3)

theorem memRead_ix4 (p : (⟨4, ![16, 16, 256, 192]⟩ : Shape).Idx → EReal) (W : (⟨4, ![16, 16, 192, 1000]⟩ : Shape).Idx → EReal)
    (w h : Fin 16) (b : Fin 256) (o : Fin 1000) : memRead p W (ix4 w h b o) = readAt p W w h b o := rfl

end Cert.Softmax

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.KernelCell.lean ====
/-
  One grid cell of the kernel, read at an index.

  At every grid point the kernel treats four cells (the four slices of its blocks along the second axis), each the same
  way: the `[256, 192]` slice of patch rows is scaled by 10, each row has its maximum subtracted, is exponentiated and
  divided by the row's sum of exponentials, and the resulting probabilities are multiplied into the cell's
  `[192, 1000]` matrix. The printed body names the four stores' values separately; here they are shown to be one
  function of the loaded slices (by unfolding), and that function is read at batch row `b` and output channel `o`:
  it is `Σ k, softmax (10 · v[b, ·]) k · w[k, o]`. The changes of float format before the matrix unit are the identity
  on the extended reals, and the matrix unit's product into a zero accumulator is the plain sum.
-/
import proofs.«422523_j26156350832862_3_alg».proof.Proof.Gen.KernelIdeal.Skeleton
import proofs.«422523_j26156350832862_3_alg».proof.Proof.Softmax
import proofs.«422523_j26156350832862_3_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.Cell

open Cert.KernelIdeal Cert.KernelIdeal.Gen Idealize.ShloMosaic Idealize.ShloMosaic.ValueIdx Cert.Softmax Cert.LibColumn

section AnyInstance
variable {F : FTy → Type} [FloatOps F]

/-- The scaled patch rows of one cell: the loaded slice without its two unit axes, times 10. -/
def logits (v : Vec F S1x1x256x192 .f32) : FVec F S256x192 .f32 :=
  mulf (shapeCast S256x192 v shapeCasts_S1x1x256x192_S256x192) (broadcast S256x192 (Scalar.ofBits .f32 0x41200000#32))

/-- Each row's maximum, as a column spread back over the row. -/
def rowMaxes (v : Vec F S1x1x256x192 .f32) : FVec F S256x192 .f32 :=
  broadcastTo S256x192 (shapeCast S256x1 (multiReduction .maximumf [1] S256 (logits v) 0xFF800000#32 reduces_S256x192_S256 (.inl rfl) rfl) shapeCasts_S256_S256x1) broadcasts_S256x1_S256x192

/-- The exponentials of the rows shifted by their maxima. -/
def expo (v : Vec F S1x1x256x192 .f32) : FVec F S256x192 .f32 := exp (subf (logits v) (rowMaxes v))

/-- Each row's sum of exponentials, as a column spread back over the row. -/
def rowSums (v : Vec F S1x1x256x192 .f32) : FVec F S256x192 .f32 :=
  broadcastTo S256x192 (shapeCast S256x1 (multiReduction .add [1] S256 (expo v) 0x00000000#32 reduces_S256x192_S256 (.inl rfl) rfl) shapeCasts_S256_S256x1) broadcasts_S256x1_S256x192

/-- The probabilities of one cell. -/
def probs (v : Vec F S1x1x256x192 .f32) : FVec F S256x192 .f32 := divf (expo v) (rowSums v)

/-- Probabilities times the cell's matrix, with the two unit axes put back for the store. -/
def readOut (pr : FVec F S256x192 .f32) (w : Vec F S1x1x192x1000 .f32) : FVec F S1x1x256x1000 .f32 :=
  shapeCast S1x1x256x1000
    (matmul dot_S256x192_S192x1000_S256x1000_1_0_0_1_n_n none (truncf .bf16 pr bitsLt_bf16_f32)
      (truncf .bf16 (shapeCast S192x1000 w shapeCasts_S1x1x192x1000_S192x1000) bitsLt_bf16_f32)
      (constant S256x1000 .f32 0x00000000#32))
    shapeCasts_S256x1000_S1x1x256x1000

/-! The four stores' values are this one function of their loads. -/

theorem pay1_eq (v : Vec F S1x1x256x192 .f32) (w : Vec F S1x1x192x1000 .f32) : k0_pay1 v w = readOut (probs v) w := rfl
theorem pay2_eq (v : Vec F S1x1x256x192 .f32) (w : Vec F S1x1x192x1000 .f32) : k0_pay2 v w = readOut (probs v) w := rfl
theorem pay3_eq (v : Vec F S1x1x256x192 .f32) : k0_pay3 v = probs v := rfl
theorem pay4_eq (pr : FVec F S256x192 .f32) (w : Vec F S1x1x192x1000 .f32) : k0_pay4 pr w = readOut pr w := rfl
theorem pay5_eq (v : Vec F S1x1x256x192 .f32) (w : Vec F S1x1x192x1000 .f32) : k0_pay5 v w = readOut (probs v) w := rfl

end AnyInstance

/-! ## At the ideal instance, index by index -/

/-- A `[1, 1, a, b]` slice without its unit axes reads, at `(r, c)`, the slice at `(0, 0, r, c)`. -/
theorem dropUnits_apply {α : Type} {a b : ℕ} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 (0 : Fin 1) (0 : Fin 1) r c) :=
  shapeCast_apply x h _ _ (by
    rw [Shape.rowMajor_val_four, Shape.rowMajor_val_two]
    show ((0 * 1 + 0) * a + r.val) * b + c.val = r.val * b + c.val
    simp only [Nat.zero_mul, Nat.zero_add])

/-- An `[a, b]` matrix given two leading unit axes reads, at `(0, 0, r, c)`, the matrix at `(r, c)`. -/
theorem addUnits_apply {α : Type} {a b : ℕ} (x : (⟨2, ![a, b]⟩ : Shape).Idx → α)
    (h : (⟨2, ![a, b]⟩ : Shape).ShapeCasts ⟨4, ![1, 1, a, b]⟩) (r : Fin a) (c : Fin b) :
    shapeCast ⟨4, ![1, 1, a, b]⟩ x h (ix4 (0 : Fin 1) (0 : Fin 1) r c) = x (ix2 r c) :=
  shapeCast_apply x h _ _ (by
    rw [Shape.rowMajor_val_four, Shape.rowMajor_val_two]
    show r.val * b + c.val = ((0 * 1 + 0) * a + r.val) * b + c.val
    simp only [Nat.zero_mul, Nat.zero_add])

theorem logits_apply (v : Vec Ideal S1x1x256x192 .f32) (b : Fin 256) (k : Fin 192) :
    logits v (ix2 b k) = v (ix4 (0 : Fin 1) (0 : Fin 1) b k) * beta := by
  show shapeCast S256x192 v shapeCasts_S1x1x256x192_S256x192 (ix2 b k) * beta = _
  rw [dropUnits_apply]

/-- The row of scaled patches the softmax is taken of. -/
abbrev rowOf (v : Vec Ideal S1x1x256x192 .f32) (b : Fin 256) : Fin 192 → EReal :=
  fun k => v (ix4 (0 : Fin 1) (0 : Fin 1) b k) * beta

theorem rowMaxes_apply (v : Vec Ideal S1x1x256x192 .f32) (b : Fin 256) (k : Fin 192) :
    rowMaxes v (ix2 b k) = rowMax (rowOf v b) := by
  unfold rowMaxes
  rw [broadcastTo_a1_ab_apply, shapeCast_a_a1_apply]
  refine (maxAxis1_apply (logits v) 0xFF800000#32 reduces_S256x192_S256 (.inl rfl) rfl b).trans ?_
  unfold rowMax
  exact congrArg (fun f => (Finset.univ : Finset (Fin 192)).fold max negInf f) (funext fun k' => logits_apply v b k')

theorem expo_apply (v : Vec Ideal S1x1x256x192 .f32) (b : Fin 256) (k : Fin 192) :
    expo v (ix2 b k) = rowExp (rowOf v b) k := by
  show Ideal.exp (logits v (ix2 b k) - rowMaxes v (ix2 b k)) = _
  rw [logits_apply, rowMaxes_apply]
  rfl

theorem rowSums_apply (v : Vec Ideal S1x1x256x192 .f32) (b : Fin 256) (k : Fin 192) :
    rowSums v (ix2 b k) = ∑ k', rowExp (rowOf v b) k' := by
  unfold rowSums
  rw [broadcastTo_a1_ab_apply, shapeCast_a_a1_apply]
  refine (sumAxis1_apply (expo v) 0x00000000#32 reduces_S256x192_S256 (.inl rfl) rfl b).trans ?_
  exact Finset.sum_congr rfl fun k' _ => expo_apply v b k'

theorem probs_apply (v : Vec Ideal S1x1x256x192 .f32) (b : Fin 256) (k : Fin 192) :
    probs v (ix2 b k) = rowSoftmax (rowOf v b) k := by
  show Ideal.div (expo v (ix2 b k)) (rowSums v (ix2 b k)) = _
  rw [expo_apply, rowSums_apply]
  rfl

/-! ### The matrix unit's product, as a sum over the 192 features -/

theorem lhs_axis0 (i : S256x1000.Idx) (q : dot_S256x192_S192x1000_S256x1000_1_0_0_1_n_n.contr.Idx) :
    (dot_S256x192_S192x1000_S256x1000_1_0_0_1_n_n.lhsIdx i q 0).val = (i 0).val := by
  unfold DotDims.lhsIdx
  rw [dif_neg (show ¬(0 : Fin S256x192.rank) ∈ dot_S256x192_S192x1000_S256x1000_1_0_0_1_n_n.lhsBatch by decide), dif_pos (show (0 : Fin S256x192.rank) ∈ dot_S256x192_S192x1000_S256x1000_1_0_0_1_n_n.lhsNonContracting by decide)]
  rfl
theorem lhs_axis1 (i : S256x1000.Idx) (q : dot_S256x192_S192x1000_S256x1000_1_0_0_1_n_n.contr.Idx) :
    (dot_S256x192_S192x1000_S256x1000_1_0_0_1_n_n.lhsIdx i q 1).val = (q ⟨0, by decide⟩).val :=
  dot_S256x192_S192x1000_S256x1000_1_0_0_1_n_n.lhsIdx_val_of_single rfl i q
theorem rhs_axis0 (i : S256x1000.Idx) (q : dot_S256x192_S192x1000_S256x1000_1_0_0_1_n_n.contr.Idx) :
    (dot_S256x192_S192x1000_S256x1000_1_0_0_1_n_n.rhsIdx i q 0).val = (q ⟨0, by decide⟩).val :=
  dot_S256x192_S192x1000_S256x1000_1_0_0_1_n_n.rhsIdx_val_of_single rfl i q
theorem rhs_axis1 (i : S256x1000.Idx) (q : dot_S256x192_S192x1000_S256x1000_1_0_0_1_n_n.contr.Idx) :
    (dot_S256x192_S192x1000_S256x1000_1_0_0_1_n_n.rhsIdx i q 1).val = (i 1).val := by
  unfold DotDims.rhsIdx
  rw [dif_neg (show ¬(1 : Fin S192x1000.rank) ∈ dot_S256x192_S192x1000_S256x1000_1_0_0_1_n_n.rhsBatch by decide), dif_pos (show (1 : Fin S192x1000.rank) ∈ dot_S256x192_S192x1000_S256x1000_1_0_0_1_n_n.rhsNonContracting by decide)]
  rfl

/-- Rows times columns: entry `(b, o)` of the product into a zero accumulator is `Σ k, l[b, k] · r[k, o]`. -/
theorem product_apply (l : FVec Ideal S256x192 .bf16) (r : FVec Ideal S192x1000 .bf16) (b : Fin 256) (o : Fin 1000) :
    matmul dot_S256x192_S192x1000_S256x1000_1_0_0_1_n_n none l r (constant S256x1000 .f32 0x00000000#32) (ix2 b o)
      = ∑ k : Fin 192, l (ix2 b k) * r (ix2 k o) := by
  show FloatOps.matmul dot_S256x192_S192x1000_S256x1000_1_0_0_1_n_n none l r (constant S256x1000 .f32 0x00000000#32) (ix2 b o) = _
  rw [Ideal.matmul_constant_zero_apply, ← Equiv.sum_comp (contrEquiv1 dot_S256x192_S192x1000_S256x1000_1_0_0_1_n_n 192 rfl rfl).symm]
  refine Finset.sum_congr rfl fun k _ => ?_
  have hk := contrEquiv1_symm_val dot_S256x192_S192x1000_S256x1000_1_0_0_1_n_n 192 rfl rfl k
  have el : dot_S256x192_S192x1000_S256x1000_1_0_0_1_n_n.lhsIdx (ix2 b o) ((contrEquiv1 dot_S256x192_S192x1000_S256x1000_1_0_0_1_n_n 192 rfl rfl).symm k) = ix2 b k := funext fun a => Fin.ext (by
    match a with
    | ⟨0, _⟩ => exact lhs_axis0 _ _
    | ⟨1, _⟩ => exact (lhs_axis1 _ _).trans hk)
  have er : dot_S256x192_S192x1000_S256x1000_1_0_0_1_n_n.rhsIdx (ix2 b o) ((contrEquiv1 dot_S256x192_S192x1000_S256x1000_1_0_0_1_n_n 192 rfl rfl).symm k) = ix2 k o := funext fun a => Fin.ext (by
    match a with
    | ⟨0, _⟩ => exact (rhs_axis0 _ _).trans hk
    | ⟨1, _⟩ => exact rhs_axis1 _ _)
  rw [el, er]

/-- What a store writes for one cell, at batch row `b` and output channel `o`. -/
theorem readOut_apply (pr : FVec Ideal S256x192 .f32) (w : Vec Ideal S1x1x192x1000 .f32) (b : Fin 256) (o : Fin 1000) :
    readOut pr w (ix4 (0 : Fin 1) (0 : Fin 1) b o) = ∑ k : Fin 192, pr (ix2 b k) * w (ix4 (0 : Fin 1) (0 : Fin 1) k o) := by
  unfold readOut
  rw [addUnits_apply, product_apply]
  refine Finset.sum_congr rfl fun k _ => ?_
  show pr (ix2 b k) * shapeCast S192x1000 w shapeCasts_S1x1x192x1000_S192x1000 (ix2 k o) = _
  rw [dropUnits_apply]

/-- One cell of the kernel: the softmax of the scaled patch row against the column of the cell's matrix. -/
theorem cell_apply (v : Vec Ideal S1x1x256x192 .f32) (w : Vec Ideal S1x1x192x1000 .f32) (b : Fin 256) (o : Fin 1000) :
    readOut (probs v) w (ix4 (0 : Fin 1) (0 : Fin 1) b o)
      = ∑ k : Fin 192, rowSoftmax (rowOf v b) k * w (ix4 (0 : Fin 1) (0 : Fin 1) k o) := by
  rw [readOut_apply]
  exact Finset.sum_congr rfl fun k _ => by rw [probs_apply]

end Cert.KernelIdeal.Cell

end
-- ==== Proof.KernelBlocks.lean ====
/-
  From the kernel's blocks to its whole output array.

  At grid point `(i, j)` the kernel is handed block `(i, j)` of the patch array (cells `(i, 4j) … (i, 4j + 3)`, all
  256 batch rows, all 192 features), the same block of `W`, and writes the same block of the `[16, 16, 256, 1000]`
  output. Its four stores fill the four cells of the output block, each with the cell's memory read; so the block it
  leaves is the block of ONE array, the array of memory reads of the patch array and `W`. The 64 blocks tile the
  output (cell `(w, h)` lies in the block of point `(w, h / 4)`), so after the run the output array is that array.
-/
import proofs.«422523_j26156350832862_3_alg».proof.Proof.Gen.KernelIdeal.Frame
import proofs.«422523_j26156350832862_3_alg».proof.Proof.KernelCell
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Cert.Softmax Cert.KernelIdeal.Cell

/-! ## One block, as a function of the two input blocks -/

/-- Cell `c` of a block: the memory read of the block's cell `c`. -/
def blockReadAt (x0 : S1x4x256x192.Idx → EReal) (x1 : S1x4x192x1000.Idx → EReal) (c : Fin 4) (b : Fin 256) (o : Fin 1000) : EReal :=
  ∑ k : Fin 192, rowSoftmax (fun k' => x0 (ix4 (0 : Fin 1) c b k') * beta) k * x1 (ix4 (0 : Fin 1) c k o)

/-- The whole output block. -/
def blockRead (x0 : S1x4x256x192.Idx → EReal) (x1 : S1x4x192x1000.Idx → EReal) : S1x4x256x1000.Idx → EReal :=
  fun y => blockReadAt x0 x1 (y 1) (y 2) (y 3)

/-- A load of cell `n` of a `[1, 4, A, B]` block reads, at `(0, 0, r, c)`, the block at `(0, n, r, c)`. -/
theorem ld_cell {Val : EltTy → Type} {e : EltTy} {A B : ℕ} (X : (⟨4, ![1, 4, A, B]⟩ : Shape).Idx → Val e) (n : ℕ) (hn : n < 4)
    (inb : ∀ a, (![0, n, 0, 0] : Fin 4 → ℕ) a + (⟨4, ![1, 1, A, B]⟩ : Shape).size a ≤ (⟨4, ![1, 4, A, B]⟩ : Shape).size a)
    (r : Fin A) (c : Fin B) :
    View.ld X (Rect.unit (s := ⟨4, ![1, 4, A, B]⟩) ![0, n, 0, 0] (⟨4, ![1, 1, A, B]⟩ : Shape).size inb) (ix4 (0 : Fin 1) (0 : Fin 1) r c)
      = X (ix4 (0 : Fin 1) (⟨n, hn⟩ : Fin 4) r c) :=
  congrArg X (funext fun a => Fin.ext (by
    match a with
    | ⟨0, _⟩ => show 0 + 1 * 0 = 0; rfl
    | ⟨1, _⟩ => show n + 1 * 0 = n; omega
    | ⟨2, _⟩ => show 0 + 1 * r.val = r.val; omega
    | ⟨3, _⟩ => show 0 + 1 * c.val = c.val; omega))

/-- The store of cell `n` of a `[1, 4, A, B]` block places its `(0, 0, r, c)` at the block's `(0, n, r, c)`. -/
theorem emb_cell {A B : ℕ} (n : ℕ) (hn : n < 4)
    (inb : ∀ a, (![0, n, 0, 0] : Fin 4 → ℕ) a + (⟨4, ![1, 1, A, B]⟩ : Shape).size a ≤ (⟨4, ![1, 4, A, B]⟩ : Shape).size a)
    (r : Fin A) (c : Fin B) :
    (Rect.unit (s := ⟨4, ![1, 4, A, B]⟩) ![0, n, 0, 0] (⟨4, ![1, 1, A, B]⟩ : Shape).size inb).emb (ix4 (0 : Fin 1) (0 : Fin 1) r c)
      = ix4 (0 : Fin 1) (⟨n, hn⟩ : Fin 4) r c :=
  funext fun a => Fin.ext (by
    match a with
    | ⟨0, _⟩ => show 0 + 1 * 0 = 0; rfl
    | ⟨1, _⟩ => show n + 1 * 0 = n; omega
    | ⟨2, _⟩ => show 0 + 1 * r.val = r.val; omega
    | ⟨3, _⟩ => show 0 + 1 * c.val = c.val; omega)

/-- The store of cell `n` writes the block's function there. -/
theorem piece_eq (x0 : Vec Ideal S1x4x256x192 .f32) (x1 : Vec Ideal S1x4x192x1000 .f32) (n : ℕ) (hn : n < 4)
    (inbP : ∀ a, (![0, n, 0, 0] : Fin 4 → ℕ) a + S1x1x256x192.size a ≤ S1x4x256x192.size a)
    (inbW : ∀ a, (![0, n, 0, 0] : Fin 4 → ℕ) a + S1x1x192x1000.size a ≤ S1x4x192x1000.size a)
    (inbO : ∀ a, (![0, n, 0, 0] : Fin 4 → ℕ) a + S1x1x256x1000.size a ≤ S1x4x256x1000.size a)
    (x : S1x1x256x1000.Idx) :
    readOut (probs (View.ld x0 (Rect.unit (s := S1x4x256x192) ![0, n, 0, 0] S1x1x256x192.size inbP)))
        (View.ld x1 (Rect.unit (s := S1x4x192x1000) ![0, n, 0, 0] S1x1x192x1000.size inbW)) x
      = blockRead x0 x1 ((Rect.unit (s := S1x4x256x1000) ![0, n, 0, 0] S1x1x256x1000.size inbO).emb x) := by
  obtain ⟨u0, u1, b, o, rfl⟩ : ∃ (u0 u1 : Fin 1) (b : Fin 256) (o : Fin 1000), x = ix4 u0 u1 b o := ⟨x 0, x 1, x 2, x 3, eq_ix4 x⟩
  obtain rfl : u0 = 0 := Subsingleton.elim _ _
  obtain rfl : u1 = 0 := Subsingleton.elim _ _
  rw [cell_apply, emb_cell n hn inbO b o]
  show _ = blockReadAt x0 x1 (⟨n, hn⟩ : Fin 4) b o
  unfold blockReadAt
  refine Finset.sum_congr rfl fun k _ => ?_
  have e1 : rowOf (View.ld x0 (Rect.unit (s := S1x4x256x192) ![0, n, 0, 0] S1x1x256x192.size inbP)) b
      = fun k' => x0 (ix4 (0 : Fin 1) (⟨n, hn⟩ : Fin 4) b k') * beta :=
    funext fun k' => congrArg (· * beta) (ld_cell x0 n hn inbP b k')
  rw [e1, ld_cell x1 n hn inbW k o]

/-- What the body leaves in the output's staging buffer is the block's function of the two input blocks: each of
    the four stores writes its cell of it, and together they cover the buffer. -/
theorem out_eq (x0 : Vec Ideal S1x4x256x192 .f32) (x1 : Vec Ideal S1x4x192x1000 .f32) :
    out0_2 (F := Ideal) x0 x1 = blockRead x0 x1 := by
  funext y
  unfold out0_2
  refine View.canon_apply_of_pieces (Val := Elt Ideal) (e := .f32) (blockRead x0 x1) _ ?_ y (cover0_2 _ _ _ _ y)
  intro p hp x
  simp only [List.mem_cons, List.mem_nil_iff, or_false] at hp
  rcases hp with rfl | rfl | rfl | rfl
  · show k0_pay1 (View.ld x0 r0_9) (View.ld x1 r0_10) x = blockRead x0 x1 (r0_11.emb x)
    rw [pay1_eq]
    exact piece_eq x0 x1 3 (by decide) _ _ _ x
  · show k0_pay5 (View.ld x0 r0_6) (View.ld x1 r0_7) x = blockRead x0 x1 (r0_8.emb x)
    rw [pay5_eq]
    exact piece_eq x0 x1 2 (by decide) _ _ _ x
  · show k0_pay4 (k0_pay3 (View.ld x0 r0_3)) (View.ld x1 r0_4) x = blockRead x0 x1 (r0_5.emb x)
    rw [pay4_eq, pay3_eq]
    exact piece_eq x0 x1 1 (by decide) _ _ _ x
  · show k0_pay2 (View.ld x0 r0_0) (View.ld x1 r0_1) x = blockRead x0 x1 (r0_2.emb x)
    rw [pay2_eq]
    exact piece_eq x0 x1 0 (by decide) _ _ _ x

/-- A block whose cells are cells `(i, 4j + c)` of the arrays `p` and `W` holds, in its cell `c`, the memory read of
    cell `(i, 4j + c)`. -/
theorem blockReadAt_eq_readAt (p : (⟨4, ![16, 16, 256, 192]⟩ : Shape).Idx → EReal) (W : (⟨4, ![16, 16, 192, 1000]⟩ : Shape).Idx → EReal)
    (x0 : S1x4x256x192.Idx → EReal) (x1 : S1x4x192x1000.Idx → EReal) (w h : Fin 16) (c : Fin 4)
    (h0 : ∀ (b : Fin 256) (k : Fin 192), x0 (ix4 (0 : Fin 1) c b k) = p (ix4 w h b k))
    (h1 : ∀ (k : Fin 192) (o : Fin 1000), x1 (ix4 (0 : Fin 1) c k o) = W (ix4 w h k o))
    (b : Fin 256) (o : Fin 1000) :
    blockReadAt x0 x1 c b o = readAt p W w h b o := by
  unfold blockReadAt readAt
  refine Finset.sum_congr rfl fun k _ => ?_
  have e : (fun k' => x0 (ix4 (0 : Fin 1) c b k') * beta) = fun k' => p (ix4 w h b k') * beta :=
    funext fun k' => congrArg (· * beta) (h0 b k')
  rw [e, h1 k o]

/-- A block whose cells are cells `(i, 4j + c)` of `p` and `W` is the block of the array of memory reads: at the block's
    index `y` it holds the memory read at `(i, 4j + y₁, y₂, y₃)`. -/
theorem blockRead_eq_memRead (p : (⟨4, ![16, 16, 256, 192]⟩ : Shape).Idx → EReal) (W : (⟨4, ![16, 16, 192, 1000]⟩ : Shape).Idx → EReal)
    (x0 : S1x4x256x192.Idx → EReal) (x1 : S1x4x192x1000.Idx → EReal) (i0 i1 : ℕ) (l0 : i0 < 16) (l1 : i1 < 4)
    (h0 : ∀ (c : Fin 4) (b : Fin 256) (k : Fin 192),
      x0 (ix4 (0 : Fin 1) c b k) = p (ix4 (⟨i0, l0⟩ : Fin 16) (⟨i1 * 4 + c.val, by have := c.isLt; omega⟩ : Fin 16) b k))
    (h1 : ∀ (c : Fin 4) (k : Fin 192) (o : Fin 1000),
      x1 (ix4 (0 : Fin 1) c k o) = W (ix4 (⟨i0, l0⟩ : Fin 16) (⟨i1 * 4 + c.val, by have := c.isLt; omega⟩ : Fin 16) k o))
    (u : Fin 1) (c : Fin 4) (b : Fin 256) (o : Fin 1000) :
    blockRead x0 x1 (ix4 u c b o)
      = memRead p W (ix4 (⟨i0, l0⟩ : Fin 16) (⟨i1 * 4 + c.val, by have := c.isLt; omega⟩ : Fin 16) b o) :=
  blockReadAt_eq_readAt p W x0 x1 _ _ c (h0 c) (h1 c) b o

/-! ## The blocks on the grid -/

variable (m : (ℓ : Loc nD τ sig) → Buf (Elt Ideal) ℓ)

/-- The array of memory reads of the patch array and `W` as the region finds them. -/
abbrev target (c : Dev nD) : S16x16x256x1000.Idx → EReal := memRead (V m c main_v2) (V m c main_arg1)

/-- The printed index maps, decided over the 64 points: the three windows move together, block `(i, j)` at point
    `(i, j)`, and never along the last two axes. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 16 ∧ win0_2.index t (1 : Fin 4) < 4 :=
  (by decide +kernel : ∀ t : Fin grid0.N, _)

/-- Every block of the output is some point's. -/
theorem idx_onto : ∀ (q0 : Fin 16) (q1 : Fin 4), ∃ t : Fin cfg0.N, win0_2.index t = ![q0.val, q1.val, 0, 0] :=
  (by decide +kernel : ∀ (q0 : Fin 16) (q1 : Fin 4), ∃ t : Fin grid0.N, win0_2.index t = ![q0.val, q1.val, 0, 0])

/-- What point `t` writes back is block `t` of the array of memory reads. -/
theorem flushed_eq (c : Dev nD) (t : Fin cfg0.N) :
    (dats m 0 c).flushed 2 t = ((cfg0.win 2).blk t).view.read (Elt Ideal) (target m c) := by
  show (cfg0.win 2).cut (grid0.coords t) ((dats m 0 c).after 2 t) = _
  rw [after0_2, out_eq]
  obtain ⟨e00, e01, e02, e03, e10, e11, e12, e13, e22, e23, l0, l1⟩ := idx_facts t
  funext j
  show blockRead (iblk m c 0 t) (iblk m c 1 t) j = memRead (V m c main_v2) (V m c main_arg1) (((cfg0.win 2).blk t).view.emb j)
  have hj0 : (j 0).val < 1 := (j 0).isLt
  have hj1 : (j 1).val < 4 := (j 1).isLt
  have hj : j = ix4 (⟨(j 0).val, hj0⟩ : Fin 1) (⟨(j 1).val, hj1⟩ : Fin 4) (j 2) (j 3) :=
    funext fun a => Fin.ext (by match a with | ⟨0, _⟩ => rfl | ⟨1, _⟩ => rfl | ⟨2, _⟩ => rfl | ⟨3, _⟩ => rfl)
  refine (congrArg (blockRead (iblk m c 0 t) (iblk m c 1 t)) hj).trans ?_
  refine (blockRead_eq_memRead (V m c main_v2) (V m c main_arg1) (iblk m c 0 t) (iblk m c 1 t)
    (win0_2.index t (0 : Fin 4)) (win0_2.index t (1 : Fin 4)) l0 l1 ?_ ?_ _ _ _ _).trans ?_
  · intro cc b k
    show V m c main_v2 (((cfg0.win 0).blk t).view.emb (ix4 (0 : Fin 1) cc b k)) = _
    refine congrArg (V m c main_v2) (funext fun a => Fin.ext ?_)
    match a with
    | ⟨0, _⟩ => show win0_0.index t (0 : Fin 4) * 1 + 1 * 0 = win0_2.index t (0 : Fin 4); omega
    | ⟨1, _⟩ => show win0_0.index t (1 : Fin 4) * 4 + 1 * cc.val = win0_2.index t (1 : Fin 4) * 4 + cc.val; omega
    | ⟨2, _⟩ => show win0_0.index t (2 : Fin 4) * 256 + 1 * b.val = b.val; omega
    | ⟨3, _⟩ => show win0_0.index t (3 : Fin 4) * 192 + 1 * k.val = k.val; omega
  · intro cc k o
    show V m c main_arg1 (((cfg0.win 1).blk t).view.emb (ix4 (0 : Fin 1) cc k o)) = _
    refine congrArg (V m c main_arg1) (funext fun a => Fin.ext ?_)
    match a with
    | ⟨0, _⟩ => show win0_1.index t (0 : Fin 4) * 1 + 1 * 0 = win0_2.index t (0 : Fin 4); omega
    | ⟨1, _⟩ => show win0_1.index t (1 : Fin 4) * 4 + 1 * cc.val = win0_2.index t (1 : Fin 4) * 4 + cc.val; omega
    | ⟨2, _⟩ => show win0_1.index t (2 : Fin 4) * 192 + 1 * k.val = k.val; omega
    | ⟨3, _⟩ => show win0_1.index t (3 : Fin 4) * 1000 + 1 * o.val = o.val; omega
  · refine congrArg (memRead (V m c main_v2) (V m c main_arg1)) (funext fun a => Fin.ext ?_)
    match a with
    | ⟨0, _⟩ => show win0_2.index t (0 : Fin 4) = win0_2.index t (0 : Fin 4) * 1 + 1 * (j 0).val; omega
    | ⟨1, _⟩ => show win0_2.index t (1 : Fin 4) * 4 + (j 1).val = win0_2.index t (1 : Fin 4) * 4 + 1 * (j 1).val; omega
    | ⟨2, _⟩ => show (j 2).val = win0_2.index t (2 : Fin 4) * 256 + 1 * (j 2).val; omega
    | ⟨3, _⟩ => show (j 3).val = win0_2.index t (3 : Fin 4) * 1000 + 1 * (j 3).val; omega

/-- An index of the output array is in point `t`'s block iff each coordinate is in the block's range on its axis. -/
theorem mem_blk (t : Fin cfg0.N) (i : S16x16x256x1000.Idx) :
    i ∈ ((cfg0.win 2).blk t).view.set ↔ ∀ a : Fin 4, win0_2.index t a * S1x4x256x1000.size a ≤ (i a).val ∧ (i a).val < win0_2.index t a * S1x4x256x1000.size a + S1x4x256x1000.size a := by
  show i ∈ ((View.whole main_v3).slice (win0_2.rect t)).set ↔ _
  rw [View.set_slice_whole, Rect.mem_set_unit]
  exact Iff.rfl

/-- Every index of the output array is in some point's block: cell `(w, h)` in that of point `(w, h / 4)`. -/
theorem cover (i : S16x16x256x1000.Idx) :
    ∃ t : Fin cfg0.N, (cfg0.win 2).flush t = true ∧ i ∈ ((cfg0.win 2).blk t).view.set := by
  have hi0 : (i 0).val < 16 := (i 0).isLt
  have hi1 : (i 1).val < 16 := (i 1).isLt
  have hi2 : (i 2).val < 256 := (i 2).isLt
  have hi3 : (i 3).val < 1000 := (i 3).isLt
  obtain ⟨t, ht⟩ := idx_onto ⟨(i 0).val, hi0⟩ ⟨(i 1).val / 4, by omega⟩
  have q0 : win0_2.index t (0 : Fin 4) = (i 0).val := congrFun ht 0
  have q1 : win0_2.index t (1 : Fin 4) = (i 1).val / 4 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 4 ≤ (i 1).val ∧ (i 1).val < win0_2.index t (1 : Fin 4) * 4 + 4; omega
  | ⟨2, _⟩ => show win0_2.index t (2 : Fin 4) * 256 ≤ (i 2).val ∧ (i 2).val < win0_2.index t (2 : Fin 4) * 256 + 256; omega
  | ⟨3, _⟩ => show win0_2.index t (3 : Fin 4) * 1000 ≤ (i 3).val ∧ (i 3).val < win0_2.index t (3 : Fin 4) * 1000 + 1000; omega

/-- The output array after the run is the array of memory reads. -/
theorem final (c : Dev nD) : (dats m 0 c).arrAt 2 cfg0.N = target m c :=
  (dats m 0 c).arrAt_eq_of_cover 2 (target m c) (fun t _ => flushed_eq m c t) cover

end Cert.KernelIdeal.Blocks

end
-- ==== Proof.KernelWhole.lean ====
/-
  The kernel program as a whole: its result as a function of its arguments.

  Before the pallas_call the program cuts the image batch into patches: `x` of shape `[256, 3, 128, 128]` is read as
  `[256, 3, 16, 8, 16, 8]`, transposed to `[16, 16, 256, 3, 8, 8]` and flattened to the patch array
  `[16, 16, 256, 192]` (three host operations; their composite is kept as it is printed). The pallas_call leaves the
  array of memory reads of the patch array and `W`, and one transpose after it puts the batch axis first. So the
  result is that transpose of the memory reads of the patches of `x` and `W`, and both arguments end unchanged.
-/
import proofs.«422523_j26156350832862_3_alg».proof.Proof.KernelBlocks
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo Cert.Softmax Cert.KernelIdeal.Blocks

/-- The patch array of an image batch. -/
def patches (x : (⟨S256x3x128x128, .f32⟩ : BufTy).Contents (Elt Ideal)) : (⟨S16x16x256x192, .f32⟩ : BufTy).Contents (Elt Ideal) :=
  shapeCast _ (transpose S16x16x256x3x8x8 [2, 4, 0, 1, 3, 5] (shapeCast _ x shapeCasts_S256x3x128x128_S256x3x16x8x16x8)
    transposes_S256x3x16x8x16x8_S16x16x256x3x8x8_2_4_0_1_3_5) shapeCasts_S16x16x256x3x8x8_S16x16x256x192

/-- The program's result: the memory reads of the patches, batch axis first. -/
def result (x : (⟨S256x3x128x128, .f32⟩ : BufTy).Contents (Elt Ideal)) (W : (⟨S16x16x192x1000, .f32⟩ : BufTy).Contents (Elt Ideal)) :
    (⟨S256x1000x16x16, .f32⟩ : BufTy).Contents (Elt Ideal) :=
  transpose S256x1000x16x16 [2, 3, 0, 1] (memRead (patches x) W) transposes_S16x16x256x1000_S256x1000x16x16_2_3_0_1

variable (m : (ℓ : Loc nD τ sig) → Buf (Elt Ideal) ℓ) (ρ : Dev nD → PrngReg)

/-- The region finds the patch array of the first argument in `main_v2`. -/
theorem V_patches (c : Dev nD) : V m c main_v2 = patches (m ((c : Thread nD τ).loc main_arg0)) := by
  show StableHlo.after hostOps0 (fun b => m (c, b)) (Proc.devRef .tc main_v2) = _
  after_results
  rfl

/-- What the transpose after the region leaves in the result buffer. -/
theorem tail_eq (c : Dev nD) :
    Pipeline.afterTail₀ cfgs (dats m) 0 (V0 m) [hostOps1] c main_v4
      = result (m ((c : Thread nD τ).loc main_arg0)) (m ((c : Thread nD τ).loc main_arg1)) := by
  unfold Pipeline.afterTail₀
  show StableHlo.after hostOps1 _ (Proc.devRef .tc main_v4) = _
  after_results
  unfold result
  refine congrArg (fun A => transpose S256x1000x16x16 [2, 3, 0, 1] A transposes_S16x16x256x1000_S256x1000x16x16_2_3_0_1) ?_
  refine (Pipeline.withArrays_arr spec0 launch0.win.arr_inj c _ _ (2 : Fin 3)).trans ?_
  refine (final m c).trans ?_
  show memRead (V m c main_v2) (V m c main_arg1) = _
  rw [V_patches, V_main_arg1]

/-- Every weakly fair execution of the program terminates with the result buffer at `result` of the arguments and
    the arguments unchanged. -/
theorem run : θ_run defs (onTc (τ := τ) (main (F := Ideal))) ⟨m, fun _ => 0, ρ⟩ fun r => ∀ c : Dev nD,
      r.2.mem ((c.tc : Thread nD τ).loc main_v4) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Whole

end
-- ==== Proof.LibLastAxis.lean ====
/-
  The last axis of a rank-4 array, reduced on the host, read at an index given by coordinates.

  Reducing an `[a, b, c, d]` array along its last axis leaves an `[a, b, c]` array; over the index `(p, q, r)` the
  coordinate `k` put back is `(p, q, r, k)`. With that, the host's reduce with a maximum body is, at `(p, q, r)`, the
  fold of `max` over the row `k ↦ x (p, q, r, k)` from the initial value.
-/
import Idealize.ShloMosaic.Lib.ValueIdx
import Idealize.ShloMosaic.PureOps.Ideal.Laws

noncomputable section

namespace Cert.LibLastAxis

open Idealize.ShloMosaic Idealize.ShloMosaic.ValueIdx

/-- Reducing `[a, b, c, d]` along axis 3: over `(p, q, r)`, coordinate `k` put back is `(p, q, r, k)`. -/
theorem lift_axis3 {a b c d : ℕ} (h : (⟨4, ![a, b, c, d]⟩ : Shape).Reduces [3] (⟨3, ![a, b, c]⟩ : Shape))
    (p : Fin a) (q : Fin b) (r : Fin c) (k : Fin ((⟨4, ![a, b, c, d]⟩ : Shape).size 3)) :
    h.lift (ix3 p q r) k = ix4 p q r (⟨k.val, k.isLt⟩ : Fin d) := by
  funext e; apply Fin.ext
  fin_cases e <;> rfl

/-- The host's reduce with a maximum body along the last axis is, at `(p, q, r)`, the fold of `max` over that row
    from the initial value. -/
theorem hostMaxAxis3_apply {φ : FTy} {a b c d : ℕ} {u : Shape} (x : FVec Ideal ⟨4, ![a, b, c, d]⟩ φ) (init : u.Idx → Ideal φ)
    (h' : (⟨4, ![a, b, c, d]⟩ : Shape).ReducesTo [3] (⟨3, ![a, b, c]⟩ : Shape))
    (h : (⟨4, ![a, b, c, d]⟩ : Shape).Reduces [3] (⟨3, ![a, b, c]⟩ : Shape)) (hu : 0 < u.numel)
    (p : Fin a) (q : Fin b) (r : Fin c) :
    Host.reduce FloatOps.maximumf x init h' hu (ix3 p q r)
      = (Finset.univ : Finset (Fin d)).fold max (init (Shape.Idx.first hu)) (fun k => x (ix4 p q r k)) :=
  (Host.reduce_eq_fold_single FloatOps.maximumf x init h' h hu (ix3 p q r)).trans
    (congrArg (fun f => (Finset.univ : Finset (Fin d)).fold max (init (Shape.Idx.first hu)) f)
      (funext fun k => congrArg x (lift_axis3 h p q r k)))

end Cert.LibLastAxis

end
-- ==== Proof.Reference.lean ====
/-
  The reference, read as the memory read of the softmaxed patches.

  After its reshapes the reference holds the patch array `p` of shape `[16, 16, 256, 192]` and computes, row by row,
  `softmax (10 · p[w, h, b, ·])` (jax's softmax: subtract the row's maximum, exponentiate, divide by the row's sum)
  and then, for every cell `(w, h)`, the product of the cell's 256 probability rows with the cell's `[192, 1000]`
  matrix. Read one operation at a time this is the array of memory reads of `p` and `W`:
  • the product `10 · p` is `p · 10` (the multiplication of extended reals commutes);
  • the maximum along the last axis folds `max` from −∞, and the further `max` with −∞ the reference takes changes
    nothing, the fold being above its starting value;
  • the sum along the last axis starts from the zero word, whose value is 0.
  No finiteness of the inputs is used: both programs are the same expression of the entries.
-/
import proofs.«422523_j26156350832862_3_alg».proof.Proof.Gen.ReferenceIdeal.Read
import proofs.«422523_j26156350832862_3_alg».proof.Proof.Softmax
import proofs.«422523_j26156350832862_3_alg».proof.Proof.LibLastAxis
import Idealize.ShloMosaic.Lib.ValueIdx
import Idealize.ShloMosaic.PureOps.Ideal.Laws

noncomputable section

open scoped BigOperators

namespace Cert.ReferenceIdeal.Mem

open Cert.ReferenceIdeal Cert.ReferenceIdeal.Gen Cert.ReferenceIdeal.Read Idealize.ShloMosaic Idealize.ShloMosaic.ValueIdx
open Cert.Softmax Cert.LibLastAxis

variable (x0 : (⟨S256x3x128x128, .f32⟩ : BufTy).Contents (Elt Ideal))

/-- The row of scaled patches at cell `(w, h)` and batch row `b`. -/
abbrev rowOf (w h : Fin 16) (b : Fin 256) : Fin 192 → EReal :=
  fun k => val_main_v2 (F := Ideal) x0 (ix4 w h b k) * beta

/-- `10 · p`, entry by entry, is `p · 10`. -/
theorem scaled_apply (w h : Fin 16) (b : Fin 256) (k : Fin 192) :
    val_main_v4 (F := Ideal) x0 (ix4 w h b k) = rowOf x0 w h b k := by
  rw [val_main_v4_apply, val_main_v3_apply, val_main_cst_apply]
  exact mul_comm _ _

/-- The maximum along the last axis is the row's maximum. -/
theorem max_apply (w h : Fin 16) (b : Fin 256) :
    val_main_v5 (F := Ideal) x0 (ix3 w h b) = rowMax (rowOf x0 w h b) := by
  unfold val_main_v5
  rw [hostMaxAxis3_apply (val_main_v4 (F := Ideal) x0) (val_main_cst_0 (F := Ideal)) reducesTo_S16x16x256x192_S16x16x256_d3 (by decide) h_S_ w h b]
  exact congrArg (fun f => (Finset.univ : Finset (Fin 192)).fold max negInf f) (funext fun k' => scaled_apply x0 w h b k')

/-- What is subtracted from every entry of the row: the row's maximum (the reference's extra `max` with −∞ absorbed). -/
theorem shift_apply (w h : Fin 16) (b : Fin 256) (k : Fin 192) :
    val_main_v9 (F := Ideal) x0 (ix4 w h b k) = rowMax (rowOf x0 w h b) := by
  rw [val_main_v9_apply, val_main_v8_apply, val_main_v7_apply, val_main_v6_apply, val_main_cst_1_apply]
  have e : idx_main_v8 (idx_main_v9 (ix4 w h b k)) = ix3 w h b :=
    funext fun a => Fin.ext (by match a with | ⟨0, _⟩ => rfl | ⟨1, _⟩ => rfl | ⟨2, _⟩ => rfl)
  rw [e, max_apply]
  exact max_negInf_rowMax _

/-- The shifted exponentials. -/
theorem exp_apply (w h : Fin 16) (b : Fin 256) (k : Fin 192) :
    val_main_v11 (F := Ideal) x0 (ix4 w h b k) = rowExp (rowOf x0 w h b) k := by
  rw [val_main_v11_apply, val_main_v10_apply, scaled_apply, shift_apply]
  rfl

/-- The row's sum of exponentials, spread back over the row. -/
theorem sum_apply (w h : Fin 16) (b : Fin 256) (k : Fin 192) :
    val_main_v14 (F := Ideal) x0 (ix4 w h b k) = ∑ k', rowExp (rowOf x0 w h b) k' := by
  rw [val_main_v14_apply, val_main_v13_apply]
  have e : idx_main_v13 (idx_main_v14 (ix4 w h b k)) = ix3 w h b :=
    funext fun a => Fin.ext (by match a with | ⟨0, _⟩ => rfl | ⟨1, _⟩ => rfl | ⟨2, _⟩ => rfl)
  rw [e, val_main_v12_apply, val_main_cst_2_apply]
  show Ideal.ofBits .f32 0x00000000#32 + _ = _
  rw [Ideal.ofBits_zero_f32, zero_add]
  refine Finset.sum_congr rfl fun k' _ => ?_
  have e' : idx_main_v12 (ix3 w h b) k' = ix4 w h b k' :=
    funext fun a => Fin.ext (by match a with | ⟨0, _⟩ => rfl | ⟨1, _⟩ => rfl | ⟨2, _⟩ => rfl | ⟨3, _⟩ => rfl)
  rw [e', exp_apply]

/-- The probabilities. -/
theorem probs_apply (w h : Fin 16) (b : Fin 256) (k : Fin 192) :
    val_main_v15 (F := Ideal) x0 (ix4 w h b k) = rowSoftmax (rowOf x0 w h b) k := by
  rw [val_main_v15_apply, exp_apply, sum_apply]
  rfl

/-- The reference's batched product is the array of memory reads of its patch array and `W`. -/
theorem product_eq (x1 : (⟨S16x16x192x1000, .f32⟩ : BufTy).Contents (Elt Ideal)) :
    val_main_v16 (F := Ideal) x0 x1 = memRead (val_main_v2 (F := Ideal) x0) x1 := by
  funext i
  obtain ⟨w, h, b, o, rfl⟩ : ∃ (w h : Fin 16) (b : Fin 256) (o : Fin 1000), i = ix4 w h b o := ⟨i 0, i 1, i 2, i 3, eq_ix4 i⟩
  rw [val_main_v16_apply, memRead_ix4]
  unfold readAt
  refine Finset.sum_congr rfl fun k _ => ?_
  have el : lidx_main_v16 (ix4 w h b o) k = ix4 w h b k :=
    funext fun a => Fin.ext (by match a with | ⟨0, _⟩ => rfl | ⟨1, _⟩ => rfl | ⟨2, _⟩ => rfl | ⟨3, _⟩ => rfl)
  have er : ridx_main_v16 (ix4 w h b o) k = ix4 w h k o :=
    funext fun a => Fin.ext (by match a with | ⟨0, _⟩ => rfl | ⟨1, _⟩ => rfl | ⟨2, _⟩ => rfl | ⟨3, _⟩ => rfl)
  rw [el, er, probs_apply]

end Cert.ReferenceIdeal.Mem

end
-- ==== Proof.lean ====
/-
  Patch softmax and per-location memory read: the kernel against its reference, over the extended reals.

  Both programs cut the image batch `x : [256, 3, 128, 128]` into a `16 × 16` grid of cells of `8 × 8` pixels (the
  patch array `p : [16, 16, 256, 192]`, by the same reshape, transpose and reshape), take for every cell `(w, h)` and
  batch row `b` the softmax of `10 · p[w, h, b, ·]` over the 192 features — the row's maximum subtracted, the
  exponential, the division by the row's sum of exponentials — and multiply the cell's 256 probability rows into
  the cell's own matrix `W[w, h] : [192, 1000]`; a last transpose puts the batch axis first, `[256, 1000, 16, 16]`.

  The reference does this with whole-array operations. The kernel runs on a `16 × 4` grid, four cells to a point,
  cell by cell on `[256, 192]` slices, rounding the probabilities and the matrix to a narrower format before the
  matrix unit; on the extended reals a change of format is the identity and the matrix unit's product into a zero
  accumulator is the plain sum, so each cell's store is `Σ k, softmax (10 · p[w, h, b, ·]) k · W[w, h, k, o]`, the 64
  output blocks tile the output array, and the array the pallas_call leaves is the reference's batched product.
  The two sides differ only in the order of the factors of `10 · p` (multiplication commutes) and in a second
  `max` with −∞ that the reference takes of the row maximum (absorbed: the fold of `max` from −∞ is above −∞).
  No law used needs the inputs to be finite, so the precondition is never opened.

  The three frames are the generated ones (the reference's is its run with the result dropped); no operation of
  the kernel is rewritten for the reading over the extended reals, so the kernel's idealization is its own text
  and that conjunct is `True`.
-/
import proofs.«422523_j26156350832862_3_alg».proof.Defs
import proofs.«422523_j26156350832862_3_alg».proof.Proof.Gen.Kernel
import proofs.«422523_j26156350832862_3_alg».proof.Proof.Gen.Kernel.Frame
import proofs.«422523_j26156350832862_3_alg».proof.Proof.Gen.KernelIdeal
import proofs.«422523_j26156350832862_3_alg».proof.Proof.Gen.KernelIdeal.Frame
import proofs.«422523_j26156350832862_3_alg».proof.Proof.Gen.ReferenceIdeal
import proofs.«422523_j26156350832862_3_alg».proof.Proof.Gen.ReferenceIdeal.Run
import proofs.«422523_j26156350832862_3_alg».proof.Proof.Gen.ReferenceIdeal.Read
import proofs.«422523_j26156350832862_3_alg».proof.Proof.Gen.Pre_finite_inputs
import proofs.«422523_j26156350832862_3_alg».proof.Proof.KernelWhole
import proofs.«422523_j26156350832862_3_alg».proof.Proof.Reference

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The reference's result is the kernel program's result function of the same arguments: its batched product is
    the array of memory reads of the patch array, and the patch array and the last transpose are the same operations
    on both sides. -/
theorem reference_result (x0 : (⟨Cert.ReferenceIdeal.S256x3x128x128, .f32⟩ : BufTy).Contents (Elt Ideal))
    (x1 : (⟨Cert.ReferenceIdeal.S16x16x192x1000, .f32⟩ : BufTy).Contents (Elt Ideal)) :
    Cert.ReferenceIdeal.Read.val_main_v17 (F := Ideal) x0 x1 = Cert.KernelIdeal.Whole.result x0 x1 := by
  unfold Cert.ReferenceIdeal.Read.val_main_v17
  rw [Cert.ReferenceIdeal.Mem.product_eq]
  rfl

/-- From memories agreeing on the arguments both programs end with the result buffer at the memory reads of the
    patches, batch axis first. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact reference_result _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
